-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg1 main_v34
  let main_c_13 : IVec S_ 32 := constantI S_ 32 100000#32
  let main_v36 : IVec S2x1600000 32 := broadcastInDim S2x1600000 ![] bcast_S_S2x1600000 main_c_13
  let main_v37 : IVec S2x1600000 1 := cmpi .slt main_arg1 main_v36
  let main_v38 : IVec S2x1600000 1 := andi main_v35 main_v37
  let main_c_14 : IVec S_ 1 := constantI S_ 1 1#1
  let main_v39 : IVec S_ 1 := (fun x v => Host.reduce IntOp.andi x v reducesTo_S2x1600000_S_d0_1 h_S_) main_v38 main_c_14
  let main_v40 : IVec S_ 1 := andi main_v33 main_v39
  main_v40

def fn_part1 {F : FTy → Type} [FloatOps F] (main_arg1 : IVec S2x1600000 32) (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1 : Shape := ⟨1, ![1]⟩
abbrev S1x1 : Shape := ⟨2, ![1, 1]⟩
abbrev S1700000x128 : Shape := ⟨2, ![1700000, 128]⟩
abbrev S5000x128 : Shape := ⟨2, ![5000, 128]⟩
abbrev S5000x1 : Shape := ⟨2, ![5000, 1]⟩
abbrev S1x128 : Shape := ⟨2, ![1, 128]⟩
abbrev S100000x64 : Shape := ⟨2, ![100000, 64]⟩
abbrev S4000x64 : Shape := ⟨2, ![4000, 64]⟩
abbrev S1x64 : Shape := ⟨2, ![1, 64]⟩

abbrev nBuf : Space → Nat
  | .hbm => 117
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1, .i32⟩
  | .hbm, ⟨51, _⟩ => ⟨S_, .i32⟩
  | .hbm, ⟨52, _⟩ => ⟨S1700000x1, .i32⟩
  | .hbm, ⟨53, _⟩ => ⟨S1700000x1, .i1⟩
  | .hbm, ⟨54, _⟩ => ⟨S1x1, .i32⟩
  | .hbm, ⟨55, _⟩ => ⟨S1700000x1, .i32⟩
  | .hbm, ⟨56, _⟩ => ⟨S1700000x1, .i1⟩
  | .hbm, ⟨57, _⟩ => ⟨S1700000x1, .i1⟩
  | .hbm, ⟨58, _⟩ => ⟨S_, .i1⟩
  | .hbm, ⟨59, _⟩ => ⟨S1700000, .i1⟩
  | .hbm, ⟨60, _⟩ => ⟨S1700000x128, .f32⟩
  | .hbm, ⟨61, _⟩ => ⟨S1700000x128, .i1⟩
  | .hbm, ⟨62, _⟩ => ⟨S_, .f32⟩
  | .hbm, ⟨63, _⟩ => ⟨S1700000x128, .f32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1, .i32⟩
  | .hbm, ⟨87, _⟩ => ⟨S_, .i32⟩
  | .hbm, ⟨88, _⟩ => ⟨S1700000x1, .i32⟩
  | .hbm, ⟨89, _⟩ => ⟨S1700000x1, .i1⟩
  | .hbm, ⟨90, _⟩ => ⟨S1x1, .i32⟩
  | .hbm, ⟨91, _⟩ => ⟨S1700000x1, .i32⟩
  | .hbm, ⟨92, _⟩ => ⟨S1700000x1, .i1⟩
  | .hbm, ⟨93, _⟩ => ⟨S1700000x1, .i1⟩
  | .hbm, ⟨94, _⟩ => ⟨S_, .i1⟩
  | .hbm, ⟨95, _⟩ => ⟨S1700000, .i1⟩
  | .hbm, ⟨96, _⟩ => ⟨S1700000x128, .f32⟩
  | .hbm, ⟨97, _⟩ => ⟨S1700000x128, .i1⟩
  | .hbm, ⟨98, _⟩ => ⟨S_, .f32⟩
  | .hbm, ⟨99, _⟩ => ⟨S1700000x128, .f32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S_, .f32⟩
  | .hbm, ⟨111, _⟩ => ⟨S100000x128, .f32⟩
  | .hbm, ⟨112, _⟩ => ⟨S100000x128, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S4000x128, .f32⟩
  | .local _ .vmem, ⟨23, _⟩ => ⟨S4000x128, .f32⟩
  | .local _ .vmem, ⟨24, _⟩ => ⟨S128x64, .f32⟩
  | .local _ .vmem, ⟨25, _⟩ => ⟨S4000x64, .f32⟩
  | .local _ .vmem, ⟨26, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call1_cst : Ref sig .tc := ⟨.hbm, 74, rfl⟩
abbrev main_call1_v0 : Ref sig .tc := ⟨.hbm, 75, rfl⟩
abbrev main_v37 : Ref sig .tc := ⟨.hbm, 76, rfl⟩
abbrev main_v38 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_5 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_call3_cst : Ref sig .tc := ⟨.hbm, 110, rfl⟩
abbrev main_call3_v0 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![340], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  shapeCasts_S1700000_S1700000x1 : S1700000.ShapeCasts S1700000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S1700000x128.size a
  hwx1_0 : ∀ i : grid1.Coords, EltTy.bits .f32 = 32 ∨ (Rect.block (s := S1700000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S1700000x128.size a
  hwx1_2 : ∀ i : grid1.Coords, EltTy.bits .f32 = 32 ∨ (Rect.block (s := S1700000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S1700000x128.size a
  hwx3_0 : ∀ i : grid3.Coords, EltTy.bits .f32 = 32 ∨ (Rect.block (s := S1700000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S1700000x1.size a
  hwx3_1 : ∀ i : grid3.Coords, EltTy.bits .f32 = 32 ∨ (Rect.block (s := S1700000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S1700000x128.size a
  hwx3_2 : ∀ i : grid3.Coords, EltTy.bits .f32 = 32 ∨ (Rect.block (s := S1700000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000x128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000, .i32⟩
  | .hbm, ⟨66, _⟩ => ⟨S1x1600000, .i32⟩
  | .hbm, ⟨67, _⟩ => ⟨S1600000, .i32⟩
  | .hbm, ⟨68, _⟩ => ⟨S1700000, .i32⟩
  | .hbm, ⟨69, _⟩ => ⟨S1x1600000, .i32⟩
  | .hbm, ⟨70, _⟩ => ⟨S1600000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S100000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x128, .f32⟩
  | .hbm, ⟨107, _⟩ => ⟨S1700000x1, .f32⟩
  | .hbm, ⟨108, _⟩ => ⟨S1700000x128, .f32⟩
  | .hbm, ⟨109, _⟩ => ⟨S1700000x128, .f32⟩
  | .hbm, ⟨110, _⟩ => ⟨S_, .f32⟩
  | .hbm, ⟨111, _⟩ => ⟨S100000x128, .f32⟩
  | .hbm, ⟨112, _⟩ => ⟨S1700000x1, .i32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S_, .f32⟩
  | .hbm, ⟨118, _⟩ => ⟨S100000x128, .f32⟩
  | .hbm, ⟨119, _⟩ => ⟨S100000x128, .f32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_9 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The function both programs compute: a two-layer graph convolution with a linear head.

  From the edge list `ei : [2, 1600000]` of node numbers, with the 100000 self-loops appended, come the source and
  destination columns `srcIdx ei`, `dstIdx ei : [1700000]`. The degree of a node is the number of edges arriving at
  it, `dinv = rsqrt degree`, and an edge's weight is `edgeNorm ei e = dinv[src e] * dinv[dst e]` (the gathers after
  the usual wrap of a negative index). One layer takes the rows `hlin` of the dense transform, gathers row `src e`
  for every edge, scales it by the edge's weight, adds it into row `dst e`, adds the bias and clamps at zero:
  `aggregate ei hlin b`. The whole network is `gcn`: two such layers over `x · W1` and `h · W2`, then `h · Wf + bf`.

  Every operation here is the host operation of that name over the reference program's own dimension records, so
  the reference's result term is this function of the arguments by unfolding.
-/
import proofs.«425278_j61151744361123_1_alg».proof.ReferenceIdeal
import proofs.«425278_j61151744361123_1_alg».proof.Proof.Gen.ReferenceIdeal

noncomputable section

namespace Cert.Gcn

open Idealize.ShloMosaic Cert.ReferenceIdeal Cert.ReferenceIdeal.Facts₀

variable {F : FTy → Type} [FloatOps F]

/-- Row `r` of the edge list followed by the node numbers 0 … 99999 (the self-loops). -/
def edgeCol (r : Nat) (h : S2x1600000.Slices ![r, 0] S1x1600000) (ei : IVec S2x1600000 32) : IVec S1700000 32 :=
  concatenate S1700000 0 [⟨S1600000, (shapeCast _ (extractStridedSlice S1x1600000 ![r, 0] ei h) shapeCasts_S1x1600000_S1600000)⟩, ⟨S100000, (iotaInDim S100000 32 0)⟩] concatenates_S1600000_S100000_S1700000_d0

/-- The source node of every edge. -/
def srcIdx (ei : IVec S2x1600000 32) : IVec S1700000 32 := edgeCol 0 slices_S2x1600000_S1x1600000_0_0 ei
/-- The destination node of every edge. -/
def dstIdx (ei : IVec S2x1600000 32) : IVec S1700000 32 := edgeCol 1 slices_S2x1600000_S1x1600000_1_0 ei

/-- A negative index counts from the end: `s < 0 ? s + 100000 : s`. -/
def wrapIdx (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- An index vector as the one-column index array a gather or scatter takes. -/
def idxCol (s : IVec S1700000 32) : IVec S1700000x1 32 := broadcastInDim S1700000x1 ![0] bcast_S1700000_S1700000x1_0 s

/-- `rsqrt` of the number of edges arriving at each node. -/
def degInv (ei : IVec S2x1600000 32) : FVec F S100000 .f32 :=
  Host.rsqrt (Host.scatterAdd scatter_S100000_S1700000x1_S1700000_n_0_0_1 (broadcastInDim S100000 ![] bcast_S_S100000 (constant S_ .f32 0x00000000#32)) (idxCol (dstIdx ei)) (broadcastInDim S1700000 ![] bcast_S_S1700000 (constant S_ .f32 0x3F800000#32)))

/-- The symmetric normalisation weight of every edge. -/
def edgeNorm (ei : IVec S2x1600000 32) : FVec F S1700000 .f32 :=
  mulf (Host.gather gather_S100000_S1700000x1_S1700000_n_0_n_n_0_1_1 (degInv (F := F) ei) (idxCol (wrapIdx (srcIdx ei))))
    (Host.gather gather_S100000_S1700000x1_S1700000_n_0_n_n_0_1_1 (degInv (F := F) ei) (idxCol (wrapIdx (dstIdx ei))))

/-- The rows of `hlin` at the edges' sources. -/
def gatherSrc (ei : IVec S2x1600000 32) (hlin : FVec F S100000x128 .f32) : FVec F S1700000x128 .f32 :=
  Host.gather gather_S100000x128_S1700000x1_S1700000x128_1_0_n_n_0_1_1128 hlin (idxCol (wrapIdx (srcIdx ei)))

/-- An edge weight repeated along the 128 features. -/
def normRows (nrm : FVec F S1700000 .f32) : FVec F S1700000x128 .f32 :=
  broadcastInDim S1700000x128 ![0, 1] bcast_S1700000x1_S1700000x128_0_1 (broadcastInDim S1700000x1 ![0] bcast_S1700000_S1700000x1_0 nrm)

/-- The messages summed into their destination rows, plus the bias. -/
def scatterBias (ei : IVec S2x1600000 32) (msgs : FVec F S1700000x128 .f32) (b : FVec F S128 .f32) : FVec F S100000x128 .f32 :=
  addf (Host.scatterAdd scatter_S100000x128_S1700000x1_S1700000x128_1_0_0_1 (broadcastInDim S100000x128 ![] bcast_S_S100000x128 (constant S_ .f32 0x00000000#32)) (idxCol (dstIdx ei)) msgs)
    (broadcastInDim S100000x128 ![0, 1] bcast_S1x128_S100000x128_0_1 (broadcastInDim S1x128 ![1] bcast_S128_S1x128_1 b))

/-- `max(·, 0)`. -/
def relu (y : FVec F S100000x128 .f32) : FVec F S100000x128 .f32 :=
  maximumf y (broadcastInDim S100000x128 ![] bcast_S_S100000x128 (constant S_ .f32 0x00000000#32))

/-- One convolution layer after its dense transform: gather, scale, scatter-add, bias, clamp. -/
def aggregate (ei : IVec S2x1600000 32) (hlin : FVec F S100000x128 .f32) (b : FVec F S128 .f32) : FVec F S100000x128 .f32 :=
  relu (scatterBias ei (mulf (gatherSrc ei hlin) (normRows (edgeNorm (F := F) ei))) b)

/-- The dense transform of a layer. -/
def dense (h : FVec F S100000x128 .f32) (W : FVec F S128x128 .f32) : FVec F S100000x128 .f32 :=
  Host.dotGeneral dot_S100000x128_S128x128_S100000x128_1_0_0_1_n_n none h W

/-- The dense transform of the head. -/
def headDense (h : FVec F S100000x128 .f32) (Wf : FVec F S128x64 .f32) : FVec F S100000x64 .f32 :=
  Host.dotGeneral dot_S100000x128_S128x64_S100000x64_1_0_0_1_n_n none h Wf

/-- The linear head. -/
def head (h : FVec F S100000x128 .f32) (Wf : FVec F S128x64 .f32) (bf : FVec F S64 .f32) : FVec F S100000x64 .f32 :=
  addf (headDense h Wf)
    (broadcastInDim S100000x64 ![0, 1] bcast_S1x64_S100000x64_0_1 (broadcastInDim S1x64 ![1] bcast_S64_S1x64_1 bf))

/-- The network. -/
def gcn (x : FVec F S100000x128 .f32) (ei : IVec S2x1600000 32) (W1 : FVec F S128x128 .f32) (b1 : FVec F S128 .f32)
    (W2 : FVec F S128x128 .f32) (b2 : FVec F S128 .f32) (Wf : FVec F S128x64 .f32) (bf : FVec F S64 .f32) : FVec F S100000x64 .f32 :=
  head (aggregate ei (dense (aggregate ei (dense x W1) b1) W2) b2) Wf bf

end Cert.Gcn

end
-- ==== Proof.RefValue.lean ====
/-
  The reference's result is the network of the specification.

  The reference's run ends with its result buffer at the composed term of its 116 host operations over the argument
  arrays. That term is the specification's `gcn` spelt out: each of its pieces (the edge columns, the edge weights, a
  layer, the head) is the same host operation over the same dimension record, so the equation holds by unfolding.
-/
import proofs.«425278_j61151744361123_1_alg».proof.Proof.Spec
import proofs.«425278_j61151744361123_1_alg».proof.Proof.Gen.ReferenceIdeal.Run

set_option maxRecDepth 16384
set_option maxHeartbeats 4000000

noncomputable section

namespace Cert.ReferenceIdeal.RefValue

open Idealize.ShloMosaic Idealize.ShloMosaic.TcCoe Idealize.SL.Sem
open Cert.ReferenceIdeal Cert.ReferenceIdeal.Gen Cert.ReferenceIdeal.Value

variable {F : FTy → Type} [FloatOps F]

/-- The reference run's result term is `gcn` of the argument arrays. -/
theorem res_eq_gcn (m : (ℓ : Loc nD τ sig) → Buf (Elt F) ℓ) (c : Dev nD) :
    (res_main_v93 m c : S100000x64.Idx → F .f32) = Cert.Gcn.gcn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold res_main_v93
  rfl

end Cert.ReferenceIdeal.RefValue

end
-- ==== Proof.TakeFill.lean ====
/-
  Gathering the rows at the edges' sources, as the kernel's program spells it, and why the spelling does not matter
  when every node number of the edge list is in range.

  The kernel's program gathers with jnp.take in its default mode: a negative index wraps, the row is gathered at the
  wrapped index, and a row whose wrapped index lies outside 0 … 99999 is replaced by a fill word. The reference gathers
  at the wrapped index and nothing else. The edges' sources are the first row of the edge list followed by the node
  numbers 0 … 99999 themselves; when every entry of the edge list is a node number, 0 ≤ e < 100000, every source is
  one too, the wrap leaves it alone, the in-range test holds on every row, and the fill never happens.
-/
import proofs.«425278_j61151744361123_1_alg».proof.Proof.Spec
import proofs.«425278_j61151744361123_1_alg».proof.KernelIdeal
import proofs.«425278_j61151744361123_1_alg».proof.Pre_finite_inputs
import proofs.«425278_j61151744361123_1_alg».proof.Proof.Gen.KernelIdeal
import proofs.«425278_j61151744361123_1_alg».proof.Proof.Gen.Pre_finite_inputs
import Idealize.ShloMosaic.Lib.StableHlo.Predicate
import Idealize.ShloMosaic.Lib.ReduceAll
import Idealize.ShloMosaic.Lib.Pipeline.Value

set_option maxRecDepth 16384

noncomputable section

namespace Cert.KernelIdeal.Take

open Idealize.ShloMosaic Cert.KernelIdeal Cert.KernelIdeal.Facts₀

variable {F : FTy → Type} [FloatOps F]

/-- The source column as the one-column index array, after the wrap of negative indices. -/
def wrappedCol (s : IVec S1700000 32) : IVec S1700000x1 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- Per edge: is the wrapped index inside 0 … 99999? -/
def inRange (s : IVec S1700000 32) : IVec S1700000 1 :=
  Host.reduce IntOp.andi (andi (cmpi .sge (wrappedCol s) (broadcastInDim S1700000x1 ![] bcast_S_S1700000x1 (constantI S_ 32 0#32))) (cmpi .sle (wrappedCol s) (broadcastInDim S1700000x1 ![0, 1] bcast_S1x1_S1700000x1_0_1 (broadcastInDim S1x1 ![1] bcast_S1_S1x1_1 (constantI S1 32 99999#32))))) (constantI S_ 1 1#1) reducesTo_S1700000x1_S1700000_d1 h_S_

/-- jnp.take along axis 0 in its default mode: the gathered row where the wrapped index is in range, the fill word elsewhere. -/
def takeFill (h : FVec F S100000x128 .f32) (s : IVec S1700000 32) : FVec F S1700000x128 .f32 :=
  select (broadcastInDim S1700000x128 ![0] bcast_S1700000_S1700000x128_0 (inRange s))
    (Host.gather gather_S100000x128_S1700000x1_S1700000x128_1_0_n_n_0_1_1128 h (wrappedCol s))
    (broadcastInDim S1700000x128 ![] bcast_S_S1700000x128 (constant S_ .f32 0x7FC00000#32))

/-! ### Words -/

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_of_all_one f hf l

/-- A non-negative word is not wrapped. -/
theorem wrap_eq_self (s : BitVec 32) (h0 : IntOp.cmpi .sge s 0#32 = 1#1) :
    Scalar.select (IntOp.cmpi .slt s 0#32) (IntOp.addi s 100000#32) s = s := by
  have h0' := IntOp.cmpi_sge.1 h0
  have hn : ¬ IntOp.cmpi .slt s 0#32 = 1 := fun hc => by
    have := IntOp.cmpi_slt.1 hc; omega
  exact if_neg hn

/-- A node number passes the in-range test `0 ≤ w ∧ w ≤ 99999`. -/
theorem inRange_word (s : BitVec 32) (h0 : IntOp.cmpi .sge s 0#32 = 1#1) (h1 : IntOp.cmpi .slt s 100000#32 = 1#1) :
    IntOp.andi (IntOp.cmpi .sge s 0#32) (IntOp.cmpi .sle s 99999#32) = 1#1 := by
  have h1' := IntOp.cmpi_slt.1 h1
  have e1 : (100000#32 : BitVec 32).toInt = 100000 := by decide
  have e2 : (99999#32 : BitVec 32).toInt = 99999 := by decide
  exact IntOp.andi_eq_one.2 ⟨h0, IntOp.cmpi_sle.2 (by omega)⟩

/-! ### The wrapped column and the in-range bit, read at an index -/

/-- An entry of the wrapped column is the wrap of an entry of the column. -/
theorem wrappedCol_apply (s : IVec S1700000 32) (i : S1700000x1.Idx) :
    ∃ k : S1700000.Idx, wrappedCol s i = Scalar.select (IntOp.cmpi .slt (s k) 0#32) (IntOp.addi (s k) 100000#32) (s k) :=
  ⟨_, rfl⟩

/-- Over a column of node numbers the in-range bit is 1 on every edge. -/
theorem inRange_eq_one (s : IVec S1700000 32)
    (hs : ∀ k : S1700000.Idx, IntOp.cmpi .sge (s k) 0#32 = 1#1 ∧ IntOp.cmpi .slt (s k) 100000#32 = 1#1) (e : S1700000.Idx) :
    inRange s e = 1#1 := by
  unfold inRange
  rw [Host.reduce_eq_foldl]
  refine foldl_andi_of_all_one _ (fun i => ?_) _
  obtain ⟨k, hk⟩ := wrappedCol_apply s i
  show IntOp.andi (IntOp.cmpi .sge (wrappedCol s i) 0#32) (IntOp.cmpi .sle (wrappedCol s i) 99999#32) = 1#1
  rw [hk, wrap_eq_self _ (hs k).1]
  exact inRange_word _ (hs k).1 (hs k).2

/-! ### The sources are node numbers -/

/-- A small count, as a word, is a node number when it is below 100000. -/
theorem ofNat_range (n : Nat) (hn : n < 100000) :
    IntOp.cmpi .sge (BitVec.ofNat 32 n) 0#32 = 1#1 ∧ IntOp.cmpi .slt (BitVec.ofNat 32 n) 100000#32 = 1#1 := by
  have e := StableHlo.Predicate.toInt_ofNat_small n (by omega)
  have e0 : (0#32 : BitVec 32).toInt = 0 := by decide
  have e1 : (100000#32 : BitVec 32).toInt = 100000 := by decide
  exact ⟨IntOp.cmpi_sge.2 (by omega), IntOp.cmpi_slt.2 (by omega)⟩

/-- With every entry of the edge list a node number, so is every source: an entry of the first row of the edge list,
    or one of the node numbers 0 … 99999 appended after it. -/
theorem srcIdx_range (ei : IVec S2x1600000 32)
    (hei : ∀ i : S2x1600000.Idx, IntOp.cmpi .sge (ei i) 0#32 = 1#1 ∧ IntOp.cmpi .slt (ei i) 100000#32 = 1#1)
    (e : S1700000.Idx) :
    IntOp.cmpi .sge (Cert.Gcn.srcIdx ei e) 0#32 = 1#1 ∧ IntOp.cmpi .slt (Cert.Gcn.srcIdx ei e) 100000#32 = 1#1 := by
  unfold Cert.Gcn.srcIdx Cert.Gcn.edgeCol
  have he := (e 0).isLt
  by_cases hlt : (e 0).val < 1600000
  · rw [concatenate_pair_apply_left (t := S1700000) (s₁ := S1600000) (s₂ := S100000) 0 _ _ _ e rfl (Shape.Idx.ofFin (n := 1600000) ⟨(e 0).val, hlt⟩)
      (fun b => by have hb : b = 0 := Subsingleton.elim _ _; subst hb; rfl)]
    exact hei _
  · have hlt' : (e 0).val - 1600000 < 100000 := by
      have : (e 0).val < 1700000 := he
      omega
    rw [concatenate_pair_apply_right (t := S1700000) (s₁ := S1600000) (s₂ := S100000) 0 _ _ _ e rfl rfl (Shape.Idx.ofFin (n := 100000) ⟨(e 0).val - 1600000, hlt'⟩)
      (fun b hb => absurd (Subsingleton.elim _ _) hb)
      (by show (e 0).val - 1600000 + 1600000 = (e 0).val; omega)]
    exact ofNat_range _ hlt'

/-- Where the condition bit is 1 a select reads its first branch. -/
theorem select_of_one {s : Shape} {α : Type} (c : IVec s 1) (a b : s.Idx → α) (j : s.Idx) (hc : c j = 1#1) :
    select c a b j = a j := by
  show Scalar.select (c j) (a j) (b j) = a j
  rw [hc]
  rfl

/-- The precondition read back: every entry of the edge list is a node number. -/
theorem range_of_pre (a0 : FVec F Cert.Pre_finite_inputs.S100000x128 .f32) (a1 : IVec Cert.Pre_finite_inputs.S2x1600000 32)
    (a2 : FVec F Cert.Pre_finite_inputs.S128x128 .f32) (a3 : FVec F Cert.Pre_finite_inputs.S128 .f32) (a4 : FVec F Cert.Pre_finite_inputs.S128x128 .f32)
    (a5 : FVec F Cert.Pre_finite_inputs.S128 .f32) (a6 : FVec F Cert.Pre_finite_inputs.S128x64 .f32) (a7 : FVec F Cert.Pre_finite_inputs.S64 .f32)
    (hpre : Cert.Pre_finite_inputs.fn (F := F) a0 a1 a2 a3 a4 a5 a6 a7 = fun _ => 1#1) :
    ∀ i : S2x1600000.Idx, IntOp.cmpi .sge (a1 i) 0#32 = 1#1 ∧ IntOp.cmpi .slt (a1 i) 100000#32 = 1#1 := by
  intro i
  -- the rank-0 result has one index
  haveI : Subsingleton Cert.Pre_finite_inputs.S_.Idx := ⟨fun a b => funext fun d => d.elim0⟩
  have h0 := congrFun hpre (fun d => d.elim0)
  unfold Cert.Pre_finite_inputs.fn Cert.Pre_finite_inputs.fn_part1 Cert.Pre_finite_inputs.fn_part2 at h0
  dsimp only at h0
  -- the last conjunct is the and-reduce, over both axes, of the two compares of the edge list
  have h1 := (IntOp.andi_eq_one.1 h0).2
  -- an and-reduce to one index that is 1 met a 1 at every entry; at an entry the word is the and of the two compares
  exact IntOp.andi_eq_one.1 (Host.reduce_andi_all _ _ _ _ _ h1 i)

/-- With every entry of the edge list a node number, the default-mode take of the source rows is the plain gather. -/
theorem takeFill_eq_gather (h : FVec F S100000x128 .f32) (ei : IVec S2x1600000 32)
    (hei : ∀ i : S2x1600000.Idx, IntOp.cmpi .sge (ei i) 0#32 = 1#1 ∧ IntOp.cmpi .slt (ei i) 100000#32 = 1#1) :
    takeFill h (Cert.Gcn.srcIdx ei) = Cert.Gcn.gatherSrc (F := F) ei h := by
  -- the gather itself is the reference's: the wrapped column is its index column
  have hg : Host.gather gather_S100000x128_S1700000x1_S1700000x128_1_0_n_n_0_1_1128 h (wrappedCol (Cert.Gcn.srcIdx ei))
      = Cert.Gcn.gatherSrc (F := F) ei h := by
    unfold Cert.Gcn.gatherSrc Cert.Gcn.idxCol Cert.Gcn.wrapIdx wrappedCol
    rfl
  rw [← hg]
  funext j
  -- the mask at a row is the in-range bit of that row's edge, which is 1
  have hm : broadcastInDim S1700000x128 ![0] bcast_S1700000_S1700000x128_0 (inRange (Cert.Gcn.srcIdx ei)) j = 1#1 :=
    inRange_eq_one _ (srcIdx_range ei hei) _
  unfold takeFill
  exact select_of_one _ _ _ j hm

end Cert.KernelIdeal.Take

end
-- ==== Proof.LibTRefCast.lean ====
/-
  Typed references of a called function's values: a value written through a typed reference and read back through
  the same reference is the value, whatever proofs the two spellings of the reference carry.
-/
import Idealize.ShloMosaic.Lib.StableHlo

namespace Cert.Lib

open Idealize.ShloMosaic Idealize.ShloMosaic.StableHlo

/-- Contents stored at the value's type as contents of the buffer and read back at the value's type are unchanged:
    the two transports along the reference's type equation cancel. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.Stretches.lean ====
/-
  The host operations between the kernel calls, one stretch at a time.

  Each stretch is a straight line of host operations; run from any contents `W` of the buffers, the buffer it is
  read for ends at the value the specification names, as a function of the buffers it reads: the edge columns and
  weights (before the first call), the default-mode take of the source rows, the weights as a column, the scatter-add
  with the bias, the clamp at zero, and the head's bias. Every other buffer a stretch does not write keeps its contents.
-/
import proofs.«425278_j61151744361123_1_alg».proof.Proof.Spec
import proofs.«425278_j61151744361123_1_alg».proof.Proof.TakeFill
import proofs.«425278_j61151744361123_1_alg».proof.Proof.LibTRefCast
import proofs.«425278_j61151744361123_1_alg».proof.Proof.Gen.KernelIdeal.Launch
import Idealize.ShloMosaic.Lib.StableHlo.Run

set_option maxRecDepth 16384
set_option maxHeartbeats 4000000

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]

/-! ## Before the first call: the edge columns and the edge weights -/

theorem src0 (W : Valuation τ sig (Elt F)) :
    (StableHlo.after hostOps0 W (Proc.devRef .tc main_v3) : S1700000.Idx → BitVec 32) = Cert.Gcn.srcIdx (W (Proc.devRef .tc main_arg1)) := by
  dsimp only [hostOps0]
  after_results
  rfl

theorem dst0 (W : Valuation τ sig (Elt F)) :
    (StableHlo.after hostOps0 W (Proc.devRef .tc main_v6) : S1700000.Idx → BitVec 32) = Cert.Gcn.dstIdx (W (Proc.devRef .tc main_arg1)) := by
  dsimp only [hostOps0]
  after_results
  rfl

theorem norm0 (W : Valuation τ sig (Elt F)) :
    (StableHlo.after hostOps0 W (Proc.devRef .tc main_v26) : S1700000.Idx → F .f32) = Cert.Gcn.edgeNorm (F := F) (W (Proc.devRef .tc main_arg1)) := by
  dsimp only [hostOps0]
  after_results_simp <;> rfl

/-- The buffers the stretch `hostOps0` writes. -/
abbrev wr0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]

theorem wr0_sub : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep0 (W : Valuation τ sig (Elt F)) (b : Ref sig .tc) (hb : b ∉ wr0) :
    StableHlo.after hostOps0 W (Proc.devRef .tc b) = W (Proc.devRef .tc b) :=
  StableHlo.after_of_writes_sub hostOps0 W wr0_sub hb

/-! ## Layer 1 -/

/-- The stretch gathers the source rows of `main_v27` in jnp.take's default mode. -/
theorem take1 (W : Valuation τ sig (Elt F)) :
    (StableHlo.after hostOps1 W (Proc.devRef .tc main_v28) : S1700000x128.Idx → F .f32)
      = Cert.KernelIdeal.Take.takeFill (F := F) (W (Proc.devRef .tc main_v27)) (W (Proc.devRef .tc main_v3)) := by
  dsimp only [hostOps1]
  after_results_simp
  simp only [Cert.Lib.ofBuf_toBuf]
  have h3 : ∀ v : main_v3.ty.Contents (Elt F), (TRef.of (T := ⟨S1700000, .i32⟩) main_v3).ofBuf v = v := fun _ => rfl
  have hi : ∀ v : main_v27.ty.Contents (Elt F), (TRef.of (T := ⟨S100000x128, .f32⟩) main_v27).ofBuf v = v := fun _ => rfl
  have ho : ∀ v : (⟨S1700000x128, .f32⟩ : BufTy).Contents (Elt F), (TRef.of (T := ⟨S1700000x128, .f32⟩) main_v28).toBuf v = v := fun _ => rfl
  simp only [h3, hi, ho]
  unfold Take.takeFill Take.inRange Take.wrappedCol
  rfl

/-- The buffers the stretch `hostOps1` writes. -/
abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v28]

theorem wr1_sub : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep1 (W : Valuation τ sig (Elt F)) (b : Ref sig .tc) (hb : b ∉ wr1) :
    StableHlo.after hostOps1 W (Proc.devRef .tc b) = W (Proc.devRef .tc b) :=
  StableHlo.after_of_writes_sub hostOps1 W wr1_sub hb

/-- The stretch reshapes the edge weights into a one-column array. -/
theorem col1_1 (W : Valuation τ sig (Elt F)) :
    (StableHlo.after hostOps1_1 W (Proc.devRef .tc main_v29) : S1700000x1.Idx → F .f32)
      = shapeCast S1700000x1 (W (Proc.devRef .tc main_v26) : S1700000.Idx → F .f32) Facts₀.shapeCasts_S1700000_S1700000x1 := by
  dsimp only [hostOps1_1]
  after_results
  rfl

/-- The buffers the stretch `hostOps1_1` writes. -/
abbrev wr1_1 : List (Ref sig .tc) := [main_v29]

theorem wr1_1_sub : (hostOps1_1 : List (HloOp τ sig (Elt F))).Forall fun op => op.writes ⊆ (wr1_1.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep1_1 (W : Valuation τ sig (Elt F)) (b : Ref sig .tc) (hb : b ∉ wr1_1) :
    StableHlo.after hostOps1_1 W (Proc.devRef .tc b) = W (Proc.devRef .tc b) :=
  StableHlo.after_of_writes_sub hostOps1_1 W wr1_1_sub hb

/-- The stretch sums the messages into their destination rows and adds the bias. -/
theorem bias2 (W : Valuation τ sig (Elt F)) (ei : IVec S2x1600000 32)
    (hd : (W (Proc.devRef .tc main_v6) : S1700000.Idx → BitVec 32) = Cert.Gcn.dstIdx ei) :
    (StableHlo.after hostOps2 W (Proc.devRef .tc main_v36) : S100000x128.Idx → F .f32)
      = Cert.Gcn.scatterBias (F := F) ei (W (Proc.devRef .tc main_v30)) (W (Proc.devRef .tc main_arg3)) := by
  dsimp only [hostOps2]
  after_results
  unfold Cert.Gcn.scatterBias
  rw [← hd]
  rfl

/-- The buffers the stretch `hostOps2` writes. -/
abbrev wr2 : List (Ref sig .tc) := [main_cst_4, main_v31, main_v32, main_v33, main_v34, main_v35, main_v36]

theorem wr2_sub : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep2 (W : Valuation τ sig (Elt F)) (b : Ref sig .tc) (hb : b ∉ wr2) :
    StableHlo.after hostOps2 W (Proc.devRef .tc b) = W (Proc.devRef .tc b) :=
  StableHlo.after_of_writes_sub hostOps2 W wr2_sub hb

/-- The stretch clamps at zero. -/
theorem relu2_1 (W : Valuation τ sig (Elt F)) :
    (StableHlo.after hostOps2_1 W (Proc.devRef .tc main_v37) : S100000x128.Idx → F .f32)
      = Cert.Gcn.relu (F := F) (W (Proc.devRef .tc main_v36)) := by
  dsimp only [hostOps2_1]
  after_results_simp
  simp only [Cert.Lib.ofBuf_toBuf]
  have hi : ∀ v : main_v36.ty.Contents (Elt F), (TRef.of (T := ⟨S100000x128, .f32⟩) main_v36).ofBuf v = v := fun _ => rfl
  have ho : ∀ v : (⟨S100000x128, .f32⟩ : BufTy).Contents (Elt F), (TRef.of (T := ⟨S100000x128, .f32⟩) main_v37).toBuf v = v := fun _ => rfl
  simp only [hi, ho]
  rfl

/-- The buffers the stretch `hostOps2_1` writes. -/
abbrev wr2_1 : List (Ref sig .tc) := [main_call1_cst, main_call1_v0, main_v37]

theorem wr2_1_sub : (hostOps2_1 : List (HloOp τ sig (Elt F))).Forall fun op => op.writes ⊆ (wr2_1.map (Proc.devRef (τ := τ) .tc)).toFinset := by
  simp only [hostOps2_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep2_1 (W : Valuation τ sig (Elt F)) (b : Ref sig .tc) (hb : b ∉ wr2_1) :
    StableHlo.after hostOps2_1 W (Proc.devRef .tc b) = W (Proc.devRef .tc b) :=
  StableHlo.after_of_writes_sub hostOps2_1 W wr2_1_sub hb

/-! ## Layer 2 -/

/-- The stretch gathers the source rows of `main_v38` in jnp.take's default mode. -/
theorem take3 (W : Valuation τ sig (Elt F)) :
    (StableHlo.after hostOps3 W (Proc.devRef .tc main_v39) : S1700000x128.Idx → F .f32)
      = Cert.KernelIdeal.Take.takeFill (F := F) (W (Proc.devRef .tc main_v38)) (W (Proc.devRef .tc main_v3)) := by
  dsimp only [hostOps3]
  after_results_simp
  simp only [Cert.Lib.ofBuf_toBuf]
  have h3 : ∀ v : main_v3.ty.Contents (Elt F), (TRef.of (T := ⟨S1700000, .i32⟩) main_v3).ofBuf v = v := fun _ => rfl
  have hi : ∀ v : main_v38.ty.Contents (Elt F), (TRef.of (T := ⟨S100000x128, .f32⟩) main_v38).ofBuf v = v := fun _ => rfl
  have ho : ∀ v : (⟨S1700000x128, .f32⟩ : BufTy).Contents (Elt F), (TRef.of (T := ⟨S1700000x128, .f32⟩) main_v39).toBuf v = v := fun _ => rfl
  simp only [h3, hi, ho]
  unfold Take.takeFill Take.inRange Take.wrappedCol
  rfl

/-- The buffers the stretch `hostOps3` writes. -/
abbrev wr3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v39]

theorem wr3_sub : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep3 (W : Valuation τ sig (Elt F)) (b : Ref sig .tc) (hb : b ∉ wr3) :
    StableHlo.after hostOps3 W (Proc.devRef .tc b) = W (Proc.devRef .tc b) :=
  StableHlo.after_of_writes_sub hostOps3 W wr3_sub hb

/-- The stretch reshapes the edge weights into a one-column array. -/
theorem col3_1 (W : Valuation τ sig (Elt F)) :
    (StableHlo.after hostOps3_1 W (Proc.devRef .tc main_v40) : S1700000x1.Idx → F .f32)
      = shapeCast S1700000x1 (W (Proc.devRef .tc main_v26) : S1700000.Idx → F .f32) Facts₀.shapeCasts_S1700000_S1700000x1 := by
  dsimp only [hostOps3_1]
  after_results
  rfl

/-- The buffers the stretch `hostOps3_1` writes. -/
abbrev wr3_1 : List (Ref sig .tc) := [main_v40]

theorem wr3_1_sub : (hostOps3_1 : List (HloOp τ sig (Elt F))).Forall fun op => op.writes ⊆ (wr3_1.map (Proc.devRef (τ := τ) .tc)).toFinset := by
  simp only [hostOps3_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep3_1 (W : Valuation τ sig (Elt F)) (b : Ref sig .tc) (hb : b ∉ wr3_1) :
    StableHlo.after hostOps3_1 W (Proc.devRef .tc b) = W (Proc.devRef .tc b) :=
  StableHlo.after_of_writes_sub hostOps3_1 W wr3_1_sub hb

/-- The stretch sums the messages into their destination rows and adds the bias. -/
theorem bias4 (W : Valuation τ sig (Elt F)) (ei : IVec S2x1600000 32)
    (hd : (W (Proc.devRef .tc main_v6) : S1700000.Idx → BitVec 32) = Cert.Gcn.dstIdx ei) :
    (StableHlo.after hostOps4 W (Proc.devRef .tc main_v47) : S100000x128.Idx → F .f32)
      = Cert.Gcn.scatterBias (F := F) ei (W (Proc.devRef .tc main_v41)) (W (Proc.devRef .tc main_arg5)) := by
  dsimp only [hostOps4]
  after_results
  unfold Cert.Gcn.scatterBias
  rw [← hd]
  rfl

/-- The buffers the stretch `hostOps4` writes. -/
abbrev wr4 : List (Ref sig .tc) := [main_cst_5, main_v42, main_v43, main_v44, main_v45, main_v46, main_v47]

theorem wr4_sub : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep4 (W : Valuation τ sig (Elt F)) (b : Ref sig .tc) (hb : b ∉ wr4) :
    StableHlo.after hostOps4 W (Proc.devRef .tc b) = W (Proc.devRef .tc b) :=
  StableHlo.after_of_writes_sub hostOps4 W wr4_sub hb

/-- The stretch clamps at zero. -/
theorem relu4_1 (W : Valuation τ sig (Elt F)) :
    (StableHlo.after hostOps4_1 W (Proc.devRef .tc main_v48) : S100000x128.Idx → F .f32)
      = Cert.Gcn.relu (F := F) (W (Proc.devRef .tc main_v47)) := by
  dsimp only [hostOps4_1]
  after_results_simp
  simp only [Cert.Lib.ofBuf_toBuf]
  have hi : ∀ v : main_v47.ty.Contents (Elt F), (TRef.of (T := ⟨S100000x128, .f32⟩) main_v47).ofBuf v = v := fun _ => rfl
  have ho : ∀ v : (⟨S100000x128, .f32⟩ : BufTy).Contents (Elt F), (TRef.of (T := ⟨S100000x128, .f32⟩) main_v48).toBuf v = v := fun _ => rfl
  simp only [hi, ho]
  rfl

/-- The buffers the stretch `hostOps4_1` writes. -/
abbrev wr4_1 : List (Ref sig .tc) := [main_call3_cst, main_call3_v0, main_v48]

theorem wr4_1_sub : (hostOps4_1 : List (HloOp τ sig (Elt F))).Forall fun op => op.writes ⊆ (wr4_1.map (Proc.devRef (τ := τ) .tc)).toFinset := by
  simp only [hostOps4_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep4_1 (W : Valuation τ sig (Elt F)) (b : Ref sig .tc) (hb : b ∉ wr4_1) :
    StableHlo.after hostOps4_1 W (Proc.devRef .tc b) = W (Proc.devRef .tc b) :=
  StableHlo.after_of_writes_sub hostOps4_1 W wr4_1_sub hb

/-! ## The head's bias -/

theorem head5 (W : Valuation τ sig (Elt F)) (h : FVec F S100000x128 .f32) (Wf : FVec F S128x64 .f32)
    (hd : (W (Proc.devRef .tc main_v49) : S100000x64.Idx → F .f32) = Cert.Gcn.headDense (F := F) h Wf) :
    (StableHlo.after hostOps5 W (Proc.devRef .tc main_v52) : S100000x64.Idx → F .f32)
      = Cert.Gcn.head (F := F) h Wf (W (Proc.devRef .tc main_arg7)) := by
  dsimp only [hostOps5]
  after_results
  unfold Cert.Gcn.head
  rw [← hd]

/-- The buffers the stretch `hostOps5` writes. -/
abbrev wr5 : List (Ref sig .tc) := [main_v50, main_v51, main_v52]

theorem wr5_sub : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep5 (W : Valuation τ sig (Elt F)) (b : Ref sig .tc) (hb : b ∉ wr5) :
    StableHlo.after hostOps5 W (Proc.devRef .tc b) = W (Proc.devRef .tc b) :=
  StableHlo.after_of_writes_sub hostOps5 W wr5_sub hb

end Cert.KernelIdeal.Stretch

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.Region0.lean ====
/-
  The first dense transform: what the tiled product leaves in its output array.

  The call runs over 25 points; point t multiplies rows 4000·t … 4000·t + 3999 of the left operand (a [4000, 128]
  block) by the whole [128, 128] weight and writes the [4000, 128] block of the same rows of the output. At the ideal
  values the change of format before the product is the identity and the product into a zero accumulator is the plain
  sum over the contracted coordinate, so the block's entry (r, q) is  ∑ₖ a(4000·t + r, k) · w(k, q): the entry
  (4000·t + r, q) of the whole product. The 25 row blocks tile the array, so the array ends holding the whole product,
  the host's contraction of the two arrays as the region finds them.
-/
import proofs.«425278_j61151744361123_1_alg».proof.Proof.Spec
import proofs.«425278_j61151744361123_1_alg».proof.Proof.LibRowTile
import proofs.«425278_j61151744361123_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The block's product is a plain [4000, 128] · [128, 128] contraction. -/
theorem tile_plain : Cert.Lib.IsPlain dot_S4000x128_S128x128_S4000x128_1_0_0_1_n_n :=
  ⟨rfl, rfl, rfl, rfl, rfl, rfl, rfl, rfl⟩

/-- The whole product is a plain [100000, 128] · [128, 128] contraction. -/
theorem whole_plain : Cert.Lib.IsPlain Cert.ReferenceIdeal.dot_S100000x128_S128x128_S100000x128_1_0_0_1_n_n :=
  ⟨rfl, rfl, rfl, rfl, rfl, rfl, rfl, rfl⟩

/-- A block's product at (r, q) is the whole product at (i, q) when the block's row r is the array's row i. -/
theorem tile_eq_whole (x0 : Vec Ideal S4000x128 .f32) (x1 : Vec Ideal S128x128 .f32)
    (a : FVec Ideal Cert.ReferenceIdeal.S100000x128 .f32) (w : FVec Ideal Cert.ReferenceIdeal.S128x128 .f32)
    (y : S4000x128.Idx) (i : Cert.ReferenceIdeal.S100000x128.Idx)
    (hrow : ∀ k : Fin 128, x0 (ix2 (y 0) k) = a (ix2 (i 0) k)) (hw : x1 = w) (hcol : y 1 = i 1) :
    k0_pay1 (F := Ideal) x0 x1 y = Cert.Gcn.dense (F := Ideal) a w i := by
  subst hw
  unfold k0_pay1 Cert.Gcn.dense
  simp only [matmul, Host.dotGeneral, shapeCast_self]
  rw [Ideal.matmul_constant_zero_apply, Ideal.dotGeneral_apply]
  exact Cert.Lib.sum_rowTile tile_plain whole_plain _ _ _ y i hrow hcol

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the left operand's block and the output's block are the same rows,
    block t; the weight's block is the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem flushed_eq (c : Dev nD) (t : Fin cfg0.N) :
    (dat0 V c).flushed 2 t = ((cfg0.win 2).blk t).view.read (Elt Ideal) (Cert.Gcn.dense (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨e00, e01, e10, e11, e20, e21⟩ := idx_facts t
  funext j
  refine tile_eq_whole _ _ _ _ j _ (fun k => ?_) ?_ ?_
  · show V c main_arg0 (((cfg0.win 0).blk t).view.emb (ix2 (j 0) k)) = V c main_arg0 (ix2 ((((cfg0.win 2).blk t).view.emb j) 0) k)
    refine congrArg (V c main_arg0) ?_
    funext ax; apply Fin.ext
    match ax with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  · funext y
    show V c main_arg2 (((cfg0.win 1).blk t).view.emb y) = V c main_arg2 y
    refine congrArg (V c main_arg2) ?_
    funext ax; apply Fin.ext
    match ax with
    | ⟨0, _⟩ => show win0_1.index t (0 : Fin 2) * 128 + 1 * (y 0).val = (y 0).val; omega
    | ⟨1, _⟩ => show win0_1.index t (1 : Fin 2) * 128 + 1 * (y 1).val = (y 1).val; omega
  · apply Fin.ext
    show (j 1).val = win0_2.index t (1 : Fin 2) * 128 + 1 * (j 1).val
    omega

/-- An index of the array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v27).slice (win0_2.rect t)).set ↔ _
  rw [View.set_slice_whole, Rect.mem_set_unit]
  exact Iff.rfl

/-- Row r lies in the block of point r / 4000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e00, e01, e10, e11, e20, e21⟩ := idx_facts t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The output array after the call is the whole product of the arrays as the region finds them. -/
theorem value (c : Dev nD) :
    (dat0 V c).arrAt 2 cfg0.N = Cert.Gcn.dense (F := Ideal) (V c main_arg0) (V c main_arg2) :=
  (dat0 V c).arrAt_eq_of_cover 2 _ (fun t _ => flushed_eq V c t) (cover)

end Cert.KernelIdeal.Region0

end
-- ==== Proof.Region1.lean ====
/-
  The first rescale: what the tiled row-by-weight product leaves in its output array.

  The call runs over 340 points; point t takes rows 5000·t … 5000·t + 4999 of the gathered rows (a [5000, 128] block)
  and the same rows of the one-column weight array (a [5000, 1] block), repeats each row's weight along the 128
  features, multiplies entry by entry, and writes the [5000, 128] block of the same rows of the output. The block's
  entry (r, q) is therefore  a(5000·t + r, q) · w(5000·t + r, 0). When the weight column the region finds is the
  reshape of a weight vector nrm, w(e, 0) = nrm e; and the weight vector repeated along the features reads nrm e at
  (e, q). So the block's entry (r, q) is the entry (5000·t + r, q) of the entrywise product of the rows with the
  repeated weights. The 340 row blocks tile the array, so the array ends holding that whole product, a function of
  the two arrays as the region finds them.
-/
import proofs.«425278_j61151744361123_1_alg».proof.Proof.Spec
import proofs.«425278_j61151744361123_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The weight repeated along the features reads, at (e, q), the weight of e. -/
theorem normRows_apply (nrm : FVec Ideal S1700000 .f32) (i : S1700000x128.Idx) :
    Cert.Gcn.normRows (F := Ideal) nrm i = nrm (ix1 (i 0)) :=
  (broadcastInDim_apply _ _ _ i (ix2 (i 0) (0 : Fin 1)) (fun a => by
        match a with
        | ⟨0, _⟩ => rfl
        | ⟨1, _⟩ => rfl)).trans
    (broadcastInDim_apply _ _ _ (ix2 (i 0) (0 : Fin 1)) (ix1 (i 0)) (fun a => by
        match a with
        | ⟨0, _⟩ => rfl))

/-- A block's scaled entry at (r, q) is the whole product's entry at i when the block's entry there is the rows' entry at
    i and the block's weight of row r is the weight of i's row. -/
theorem scale_eq (x0 : Vec Ideal S5000x128 .f32) (x1 : Vec Ideal S5000x1 .f32) (h : FVec Ideal S1700000x128 .f32)
    (nrm : FVec Ideal S1700000 .f32) (y : S5000x128.Idx) (i : S1700000x128.Idx)
    (h0 : x0 y = h i) (h1 : x1 (ix2 (y 0) 0) = nrm (ix1 (i 0))) :
    k1_pay1 (F := Ideal) x0 x1 y = mulf h (Cert.Gcn.normRows (F := Ideal) nrm) i := by
  unfold k1_pay1
  simp only [shapeCast_self]
  rw [mulf_apply, mulf_apply, normRows_apply, ← h0, ← h1]
  congr 1
  exact broadcastTo_apply _ _ y (ix2 (y 0) 0) (fun a => by
    match a with
    | ⟨0, _⟩ => rfl
    | ⟨1, _⟩ => rfl)

/-- The weight vector as a one-column array reads, at (e, 0), the weight of e. -/
theorem col_apply (nrm : FVec Ideal S1700000 .f32) (p : S1700000x1.Idx) (e : Fin 1700000) (he : (p 0).val = e.val) :
    shapeCast S1700000x1 nrm Facts₀.shapeCasts_S1700000_S1700000x1 p = nrm (ix1 e) :=
  shapeCast_apply nrm _ p (ix1 e) (by
    rw [Shape.rowMajor_val_one, Shape.rowMajor_val_two]
    have h1 : (p 1).val < 1 := idx2_lt1 p
    show e.val = (p 0).val * 1 + (p 1).val
    omega)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 340 points: the rows' block, the weights' block and the output's block are the
    same rows, block t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the rows scaled by their weights. -/
theorem flushed_eq (c : Dev nD) (nrm : FVec Ideal S1700000 .f32)
    (hcol : (V c main_v29 : S1700000x1.Idx → EReal) = shapeCast S1700000x1 nrm Facts₀.shapeCasts_S1700000_S1700000x1)
    (t : Fin cfg1.N) :
    (dat1 V c).flushed 2 t = ((cfg1.win 2).blk t).view.read (Elt Ideal)
      (mulf (F := Ideal) (V c main_v28 : S1700000x128.Idx → EReal) (Cert.Gcn.normRows (F := Ideal) nrm)) := by
  show (cfg1.win 2).cut (grid1.coords t) ((dat1 V c).after 2 t) = _
  rw [after1_2]
  unfold out1_2
  rw [View.canon_unit_zero hz]
  simp only [View.ld_unit_zero (S := S5000x128) hz, View.ld_unit_zero (S := S5000x1) hz]
  obtain ⟨e00, e01, e10, e11, e20, e21⟩ := idx_facts t
  funext j
  refine scale_eq _ _ _ nrm j _ ?_ ?_
  · show V c main_v28 (((cfg1.win 0).blk t).view.emb j) = V c main_v28 (((cfg1.win 2).blk t).view.emb j)
    refine congrArg (V c main_v28) ?_
    funext ax; apply Fin.ext
    match ax with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v29 (((cfg1.win 1).blk t).view.emb (ix2 (j 0) 0)) = _
    refine (congrFun hcol _).trans ?_
    refine col_apply nrm _ _ ?_
    show win1_1.index t (0 : Fin 2) * 5000 + 1 * (j 0).val = win1_2.index t (0 : Fin 2) * 5000 + 1 * (j 0).val
    omega

/-- An index of the array is in point t's block iff each coordinate is in the block's range on its axis. -/
theorem mem_blk (t : Fin cfg1.N) (i : S1700000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v30).slice (win1_2.rect t)).set ↔ _
  rw [View.set_slice_whole, Rect.mem_set_unit]
  exact Iff.rfl

/-- Row e lies in the block of point e / 5000. -/
theorem cover (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 340 := N_1
  let t : Fin cfg1.N := ⟨(i 0).val / 5000, by rw [hN]; omega⟩
  obtain ⟨e00, e01, e10, e11, e20, e21⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the call: every gathered row times its edge's weight, when the weight column the region
    finds is the reshape of the weight vector `nrm`. -/
theorem value (c : Dev nD) (nrm : FVec Ideal S1700000 .f32)
    (hcol : (V c main_v29 : S1700000x1.Idx → EReal) = shapeCast S1700000x1 nrm Facts₀.shapeCasts_S1700000_S1700000x1) :
    (dat1 V c).arrAt 2 cfg1.N = mulf (F := Ideal) (V c main_v28 : S1700000x128.Idx → EReal) (Cert.Gcn.normRows (F := Ideal) nrm) :=
  (dat1 V c).arrAt_eq_of_cover 2 _ (fun t _ => flushed_eq V c nrm hcol t) (cover)

end Cert.KernelIdeal.Region1

end
-- ==== Proof.Region2.lean ====
/-
  The second dense transform: what the tiled product leaves in its output array.

  The call runs over 25 points; point t multiplies rows 4000·t … 4000·t + 3999 of the left operand (a [4000, 128]
  block) by the whole [128, 128] weight and writes the [4000, 128] block of the same rows of the output. At the ideal
  values the change of format before the product is the identity and the product into a zero accumulator is the plain
  sum over the contracted coordinate, so the block's entry (r, q) is  ∑ₖ a(4000·t + r, k) · w(k, q): the entry
  (4000·t + r, q) of the whole product. The 25 row blocks tile the array, so the array ends holding the whole product,
  the host's contraction of the two arrays as the region finds them.
-/
import proofs.«425278_j61151744361123_1_alg».proof.Proof.Spec
import proofs.«425278_j61151744361123_1_alg».proof.Proof.LibRowTile
import proofs.«425278_j61151744361123_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The block's product is a plain [4000, 128] · [128, 128] contraction. -/
theorem tile_plain : Cert.Lib.IsPlain dot_S4000x128_S128x128_S4000x128_1_0_0_1_n_n :=
  ⟨rfl, rfl, rfl, rfl, rfl, rfl, rfl, rfl⟩

/-- The whole product is a plain [100000, 128] · [128, 128] contraction. -/
theorem whole_plain : Cert.Lib.IsPlain Cert.ReferenceIdeal.dot_S100000x128_S128x128_S100000x128_1_0_0_1_n_n :=
  ⟨rfl, rfl, rfl, rfl, rfl, rfl, rfl, rfl⟩

/-- A block's product at (r, q) is the whole product at (i, q) when the block's row r is the array's row i. -/
theorem tile_eq_whole (x0 : Vec Ideal S4000x128 .f32) (x1 : Vec Ideal S128x128 .f32)
    (a : FVec Ideal Cert.ReferenceIdeal.S100000x128 .f32) (w : FVec Ideal Cert.ReferenceIdeal.S128x128 .f32)
    (y : S4000x128.Idx) (i : Cert.ReferenceIdeal.S100000x128.Idx)
    (hrow : ∀ k : Fin 128, x0 (ix2 (y 0) k) = a (ix2 (i 0) k)) (hw : x1 = w) (hcol : y 1 = i 1) :
    k2_pay1 (F := Ideal) x0 x1 y = Cert.Gcn.dense (F := Ideal) a w i := by
  subst hw
  unfold k2_pay1 Cert.Gcn.dense
  simp only [matmul, Host.dotGeneral, shapeCast_self]
  rw [Ideal.matmul_constant_zero_apply, Ideal.dotGeneral_apply]
  exact Cert.Lib.sum_rowTile tile_plain whole_plain _ _ _ y i hrow hcol

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the left operand's block and the output's block are the same rows,
    block t; the weight's block is the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays as the region finds them. -/
theorem flushed_eq (c : Dev nD) (t : Fin cfg2.N) :
    (dat2 V c).flushed 2 t = ((cfg2.win 2).blk t).view.read (Elt Ideal) (Cert.Gcn.dense (F := Ideal) (V c main_v37) (V c main_arg4)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  obtain ⟨e00, e01, e10, e11, e20, e21⟩ := idx_facts t
  funext j
  refine tile_eq_whole _ _ _ _ j _ (fun k => ?_) ?_ ?_
  · show V c main_v37 (((cfg2.win 0).blk t).view.emb (ix2 (j 0) k)) = V c main_v37 (ix2 ((((cfg2.win 2).blk t).view.emb j) 0) k)
    refine congrArg (V c main_v37) ?_
    funext ax; apply Fin.ext
    match ax with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  · funext y
    show V c main_arg4 (((cfg2.win 1).blk t).view.emb y) = V c main_arg4 y
    refine congrArg (V c main_arg4) ?_
    funext ax; apply Fin.ext
    match ax with
    | ⟨0, _⟩ => show win2_1.index t (0 : Fin 2) * 128 + 1 * (y 0).val = (y 0).val; omega
    | ⟨1, _⟩ => show win2_1.index t (1 : Fin 2) * 128 + 1 * (y 1).val = (y 1).val; omega
  · apply Fin.ext
    show (j 1).val = win2_2.index t (1 : Fin 2) * 128 + 1 * (j 1).val
    omega

/-- An index of the array is in point t's block iff each coordinate is in the block's range on its axis. -/
theorem mem_blk (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v38).slice (win2_2.rect t)).set ↔ _
  rw [View.set_slice_whole, Rect.mem_set_unit]
  exact Iff.rfl

/-- Row r lies in the block of point r / 4000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨e00, e01, e10, e11, e20, e21⟩ := idx_facts t
  have ht : t.val = (i 0).val / 4000 := rfl
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- The output array after the call is the whole product of the arrays as the region finds them. -/
theorem value (c : Dev nD) :
    (dat2 V c).arrAt 2 cfg2.N = Cert.Gcn.dense (F := Ideal) (V c main_v37) (V c main_arg4) :=
  (dat2 V c).arrAt_eq_of_cover 2 _ (fun t _ => flushed_eq V c t) (cover)

end Cert.KernelIdeal.Region2

end
-- ==== Proof.Region3.lean ====
/-
  The second rescale: what the tiled row-by-weight product leaves in its output array.

  The call runs over 340 points; point t takes rows 5000·t … 5000·t + 4999 of the gathered rows (a [5000, 128] block)
  and the same rows of the one-column weight array (a [5000, 1] block), repeats each row's weight along the 128
  features, multiplies entry by entry, and writes the [5000, 128] block of the same rows of the output. The block's
  entry (r, q) is therefore  a(5000·t + r, q) · w(5000·t + r, 0). When the weight column the region finds is the
  reshape of a weight vector nrm, w(e, 0) = nrm e; and the weight vector repeated along the features reads nrm e at
  (e, q). So the block's entry (r, q) is the entry (5000·t + r, q) of the entrywise product of the rows with the
  repeated weights. The 340 row blocks tile the array, so the array ends holding that whole product, a function of
  the two arrays as the region finds them.
-/
import proofs.«425278_j61151744361123_1_alg».proof.Proof.Spec
import proofs.«425278_j61151744361123_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The weight repeated along the features reads, at (e, q), the weight of e. -/
theorem normRows_apply (nrm : FVec Ideal S1700000 .f32) (i : S1700000x128.Idx) :
    Cert.Gcn.normRows (F := Ideal) nrm i = nrm (ix1 (i 0)) :=
  (broadcastInDim_apply _ _ _ i (ix2 (i 0) (0 : Fin 1)) (fun a => by
        match a with
        | ⟨0, _⟩ => rfl
        | ⟨1, _⟩ => rfl)).trans
    (broadcastInDim_apply _ _ _ (ix2 (i 0) (0 : Fin 1)) (ix1 (i 0)) (fun a => by
        match a with
        | ⟨0, _⟩ => rfl))

/-- A block's scaled entry at (r, q) is the whole product's entry at i when the block's entry there is the rows' entry at
    i and the block's weight of row r is the weight of i's row. -/
theorem scale_eq (x0 : Vec Ideal S5000x128 .f32) (x1 : Vec Ideal S5000x1 .f32) (h : FVec Ideal S1700000x128 .f32)
    (nrm : FVec Ideal S1700000 .f32) (y : S5000x128.Idx) (i : S1700000x128.Idx)
    (h0 : x0 y = h i) (h1 : x1 (ix2 (y 0) 0) = nrm (ix1 (i 0))) :
    k3_pay1 (F := Ideal) x0 x1 y = mulf h (Cert.Gcn.normRows (F := Ideal) nrm) i := by
  unfold k3_pay1
  simp only [shapeCast_self]
  rw [mulf_apply, mulf_apply, normRows_apply, ← h0, ← h1]
  congr 1
  exact broadcastTo_apply _ _ y (ix2 (y 0) 0) (fun a => by
    match a with
    | ⟨0, _⟩ => rfl
    | ⟨1, _⟩ => rfl)

/-- The weight vector as a one-column array reads, at (e, 0), the weight of e. -/
theorem col_apply (nrm : FVec Ideal S1700000 .f32) (p : S1700000x1.Idx) (e : Fin 1700000) (he : (p 0).val = e.val) :
    shapeCast S1700000x1 nrm Facts₀.shapeCasts_S1700000_S1700000x1 p = nrm (ix1 e) :=
  shapeCast_apply nrm _ p (ix1 e) (by
    rw [Shape.rowMajor_val_one, Shape.rowMajor_val_two]
    have h1 : (p 1).val < 1 := idx2_lt1 p
    show e.val = (p 0).val * 1 + (p 1).val
    omega)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 340 points: the rows' block, the weights' block and the output's block are the
    same rows, block t. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the rows scaled by their weights. -/
theorem flushed_eq (c : Dev nD) (nrm : FVec Ideal S1700000 .f32)
    (hcol : (V c main_v40 : S1700000x1.Idx → EReal) = shapeCast S1700000x1 nrm Facts₀.shapeCasts_S1700000_S1700000x1)
    (t : Fin cfg3.N) :
    (dat3 V c).flushed 2 t = ((cfg3.win 2).blk t).view.read (Elt Ideal)
      (mulf (F := Ideal) (V c main_v39 : S1700000x128.Idx → EReal) (Cert.Gcn.normRows (F := Ideal) nrm)) := by
  show (cfg3.win 2).cut (grid3.coords t) ((dat3 V c).after 2 t) = _
  rw [after3_2]
  unfold out3_2
  rw [View.canon_unit_zero hz]
  simp only [View.ld_unit_zero (S := S5000x128) hz, View.ld_unit_zero (S := S5000x1) hz]
  obtain ⟨e00, e01, e10, e11, e20, e21⟩ := idx_facts t
  funext j
  refine scale_eq _ _ _ nrm j _ ?_ ?_
  · show V c main_v39 (((cfg3.win 0).blk t).view.emb j) = V c main_v39 (((cfg3.win 2).blk t).view.emb j)
    refine congrArg (V c main_v39) ?_
    funext ax; apply Fin.ext
    match ax with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c main_v40 (((cfg3.win 1).blk t).view.emb (ix2 (j 0) 0)) = _
    refine (congrFun hcol _).trans ?_
    refine col_apply nrm _ _ ?_
    show win3_1.index t (0 : Fin 2) * 5000 + 1 * (j 0).val = win3_2.index t (0 : Fin 2) * 5000 + 1 * (j 0).val
    omega

/-- An index of the array is in point t's block iff each coordinate is in the block's range on its axis. -/
theorem mem_blk (t : Fin cfg3.N) (i : S1700000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v41).slice (win3_2.rect t)).set ↔ _
  rw [View.set_slice_whole, Rect.mem_set_unit]
  exact Iff.rfl

/-- Row e lies in the block of point e / 5000. -/
theorem cover (i : S1700000x128.Idx) : ∃ t : Fin cfg3.N, (cfg3.win 2).flush t = true ∧ i ∈ ((cfg3.win 2).blk t).view.set := by
  have hi0 : (i 0).val < 1700000 := (i 0).isLt
  have hi1 : (i 1).val < 128 := (i 1).isLt
  have hN : cfg3.N = 340 := N_3
  let t : Fin cfg3.N := ⟨(i 0).val / 5000, by rw [hN]; omega⟩
  obtain ⟨e00, e01, e10, e11, e20, e21⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the call: every gathered row times its edge's weight, when the weight column the region
    finds is the reshape of the weight vector `nrm`. -/
theorem value (c : Dev nD) (nrm : FVec Ideal S1700000 .f32)
    (hcol : (V c main_v40 : S1700000x1.Idx → EReal) = shapeCast S1700000x1 nrm Facts₀.shapeCasts_S1700000_S1700000x1) :
    (dat3 V c).arrAt 2 cfg3.N = mulf (F := Ideal) (V c main_v39 : S1700000x128.Idx → EReal) (Cert.Gcn.normRows (F := Ideal) nrm) :=
  (dat3 V c).arrAt_eq_of_cover 2 _ (fun t _ => flushed_eq V c nrm hcol t) (cover)

end Cert.KernelIdeal.Region3

end
-- ==== Proof.Region4.lean ====
/-
  The head's dense transform: what the tiled product leaves in its output array.

  The call runs over 25 points; point t multiplies rows 4000·t … 4000·t + 3999 of the hidden features (a [4000, 128]
  block) by the whole [128, 64] head weight and writes the [4000, 64] block of the same rows of the output. At the ideal
  values the change of format before the product is the identity and the product into a zero accumulator is the plain
  sum over the contracted coordinate, so the block's entry (r, q) is  ∑ₖ h(4000·t + r, k) · w(k, q): the entry
  (4000·t + r, q) of the whole product. The 25 row blocks tile the [100000, 64] array, so it ends holding the whole
  product, the host's contraction of the two arrays as the region finds them.
-/
import proofs.«425278_j61151744361123_1_alg».proof.Proof.Spec
import proofs.«425278_j61151744361123_1_alg».proof.Proof.LibRowTile
import proofs.«425278_j61151744361123_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The block's product is a plain [4000, 128] · [128, 64] contraction. -/
theorem tile_plain : Cert.Lib.IsPlain dot_S4000x128_S128x64_S4000x64_1_0_0_1_n_n :=
  ⟨rfl, rfl, rfl, rfl, rfl, rfl, rfl, rfl⟩

/-- The whole product is a plain [100000, 128] · [128, 64] contraction. -/
theorem whole_plain : Cert.Lib.IsPlain Cert.ReferenceIdeal.dot_S100000x128_S128x64_S100000x64_1_0_0_1_n_n :=
  ⟨rfl, rfl, rfl, rfl, rfl, rfl, rfl, rfl⟩

/-- A block's product at (r, q) is the whole product at (i, q) when the block's row r is the array's row i. -/
theorem tile_eq_whole (x0 : Vec Ideal S4000x128 .f32) (x1 : Vec Ideal S128x64 .f32)
    (a : FVec Ideal Cert.ReferenceIdeal.S100000x128 .f32) (w : FVec Ideal Cert.ReferenceIdeal.S128x64 .f32)
    (y : S4000x64.Idx) (i : Cert.ReferenceIdeal.S100000x64.Idx)
    (hrow : ∀ k : Fin 128, x0 (ix2 (y 0) k) = a (ix2 (i 0) k)) (hw : x1 = w) (hcol : y 1 = i 1) :
    k4_pay1 (F := Ideal) x0 x1 y = Cert.Gcn.headDense (F := Ideal) a w i := by
  subst hw
  unfold k4_pay1 Cert.Gcn.headDense
  simp only [matmul, Host.dotGeneral, shapeCast_self]
  rw [Ideal.matmul_constant_zero_apply, Ideal.dotGeneral_apply]
  exact Cert.Lib.sum_rowTile tile_plain whole_plain _ _ _ y i hrow hcol

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the hidden features' block and the output's block are the same rows,
    block t; the weight's block is the whole weight. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product of the arrays as the region finds them. -/
theorem flushed_eq (c : Dev nD) (t : Fin cfg4.N) :
    (dat4 V c).flushed 2 t = ((cfg4.win 2).blk t).view.read (Elt Ideal) (Cert.Gcn.headDense (F := Ideal) (V c main_v48) (V c main_arg6)) := by
  show (cfg4.win 2).cut (grid4.coords t) ((dat4 V c).after 2 t) = _
  rw [after4_2]
  unfold out4_2
  rw [View.canon_unit_zero hz]
  simp only [View.ld_unit_zero (S := S4000x128) hz, View.ld_unit_zero (S := S128x64) hz]
  obtain ⟨e00, e01, e10, e11, e20, e21⟩ := idx_facts t
  funext j
  refine tile_eq_whole _ _ _ _ j _ (fun k => ?_) ?_ ?_
  · show V c main_v48 (((cfg4.win 0).blk t).view.emb (ix2 (j 0) k)) = V c main_v48 (ix2 ((((cfg4.win 2).blk t).view.emb j) 0) k)
    refine congrArg (V c main_v48) ?_
    funext ax; apply Fin.ext
    match ax with
    | ⟨0, _⟩ => show win4_0.index t (0 : Fin 2) * 4000 + 1 * (j 0).val = win4_2.index t (0 : Fin 2) * 4000 + 1 * (j 0).val; omega
    | ⟨1, _⟩ => show win4_0.index t (1 : Fin 2) * 128 + 1 * k.val = k.val; omega
  · funext y
    show V c main_arg6 (((cfg4.win 1).blk t).view.emb y) = V c main_arg6 y
    refine congrArg (V c main_arg6) ?_
    funext ax; apply Fin.ext
    match ax with
    | ⟨0, _⟩ => show win4_1.index t (0 : Fin 2) * 128 + 1 * (y 0).val = (y 0).val; omega
    | ⟨1, _⟩ => show win4_1.index t (1 : Fin 2) * 64 + 1 * (y 1).val = (y 1).val; omega
  · apply Fin.ext
    show (j 1).val = win4_2.index t (1 : Fin 2) * 64 + 1 * (j 1).val
    omega

/-- An index of the array is in point t's block iff each coordinate is in the block's range on its axis. -/
theorem mem_blk (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v49).slice (win4_2.rect t)).set ↔ _
  rw [View.set_slice_whole, Rect.mem_set_unit]
  exact Iff.rfl

/-- Row r lies in the block of point r / 4000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 25 := N_4
  let t : Fin cfg4.N := ⟨(i 0).val / 4000, by rw [hN]; omega⟩
  obtain ⟨e00, e01, e10, e11, e20, e21⟩ := idx_facts t
  have ht : t.val = (i 0).val / 4000 := rfl
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 64 ≤ (i 1).val ∧ (i 1).val < win4_2.index t (1 : Fin 2) * 64 + 64; omega

/-- The output array after the call is the whole product of the arrays as the region finds them. -/
theorem value (c : Dev nD) :
    (dat4 V c).arrAt 2 cfg4.N = Cert.Gcn.headDense (F := Ideal) (V c main_v48) (V c main_arg6) :=
  (dat4 V c).arrAt_eq_of_cover 2 _ (fun t _ => flushed_eq V c t) (cover)

end Cert.KernelIdeal.Region4

end
-- ==== Proof.Walk.lean ====
/-
  The kernel's program, read through: what its result buffer holds at the end.

  The run ends with every buffer at the last boundary's contents, a fold through the program: a host stretch applies
  its operations to the contents before it, a kernel call replaces its three arrays by what the call leaves and keeps
  every other buffer. Going through the fifteen boundaries in order, with the edge list's entries in range:
  before the first call the edge columns and weights are the specification's; the first call leaves `x · W1`; the take
  gathers its rows at the sources (the fill never happens); the second call scales each gathered row by its edge's
  weight; the scatter-add, the bias and the clamp make the first layer's output; the same five steps make the second
  layer's from it; the last call leaves `h · Wf` and the last stretch adds `bf`. A buffer read later than it is written
  (the edge columns, the weights, the biases and matrices) is carried across the boundaries in between, none of which
  writes it.
-/
import proofs.«425278_j61151744361123_1_alg».proof.Proof.Spec
import proofs.«425278_j61151744361123_1_alg».proof.Proof.TakeFill
import proofs.«425278_j61151744361123_1_alg».proof.Proof.Stretches
import proofs.«425278_j61151744361123_1_alg».proof.Proof.Region0
import proofs.«425278_j61151744361123_1_alg».proof.Proof.Region1
import proofs.«425278_j61151744361123_1_alg».proof.Proof.Region2
import proofs.«425278_j61151744361123_1_alg».proof.Proof.Region3
import proofs.«425278_j61151744361123_1_alg».proof.Proof.Region4
import proofs.«425278_j61151744361123_1_alg».proof.Proof.Gen.KernelIdeal.Frame

set_option maxRecDepth 16384
set_option maxHeartbeats 4000000

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The result buffer at the last boundary is the network of the argument arrays. -/
theorem result_eq
    (hei : ∀ i : S2x1600000.Idx, IntOp.cmpi .sge ((m ((c : Thread nD τ).loc main_arg1) : S2x1600000.Idx → BitVec 32) i) 0#32 = 1#1
      ∧ IntOp.cmpi .slt ((m ((c : Thread nD τ).loc main_arg1) : S2x1600000.Idx → BitVec 32) i) 100000#32 = 1#1) :
    (W15 m ρ c (Proc.devRef .tc main_v52) : S100000x64.Idx → EReal)
      = Cert.Gcn.gcn (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  -- the argument arrays, named
  generalize hx : (m ((c : Thread nD τ).loc main_arg0) : S100000x128.Idx → EReal) = x
  generalize he : (m ((c : Thread nD τ).loc main_arg1) : S2x1600000.Idx → BitVec 32) = ei at hei
  generalize hw1 : (m ((c : Thread nD τ).loc main_arg2) : S128x128.Idx → EReal) = w1
  generalize hb1 : (m ((c : Thread nD τ).loc main_arg3) : S128.Idx → EReal) = b1
  generalize hw2 : (m ((c : Thread nD τ).loc main_arg4) : S128x128.Idx → EReal) = w2
  generalize hb2 : (m ((c : Thread nD τ).loc main_arg5) : S128.Idx → EReal) = b2
  generalize hwf : (m ((c : Thread nD τ).loc main_arg6) : S128x64.Idx → EReal) = wf
  generalize hbf : (m ((c : Thread nD τ).loc main_arg7) : S64.Idx → EReal) = bf
  unfold Cert.Gcn.gcn
  -- boundary 1: after the first stretch
  have a1_src : (W1 m ρ c (Proc.devRef .tc main_v3) : S1700000.Idx → BitVec 32) = Cert.Gcn.srcIdx ei := (Stretch.src0 (W0 m ρ c)).trans (congrArg Cert.Gcn.srcIdx he)
  have a1_dst : (W1 m ρ c (Proc.devRef .tc main_v6) : S1700000.Idx → BitVec 32) = Cert.Gcn.dstIdx ei := (Stretch.dst0 (W0 m ρ c)).trans (congrArg Cert.Gcn.dstIdx he)
  have a1_nrm : (W1 m ρ c (Proc.devRef .tc main_v26) : S1700000.Idx → EReal) = Cert.Gcn.edgeNorm (F := Ideal) ei := (Stretch.norm0 (W0 m ρ c)).trans (congrArg (Cert.Gcn.edgeNorm (F := Ideal)) he)
  have a1_x : (W1 m ρ c (Proc.devRef .tc main_arg0) : S100000x128.Idx → EReal) = x := (Stretch.keep0 (W0 m ρ c) main_arg0 (by decide)).trans hx
  have a1_w1 : (W1 m ρ c (Proc.devRef .tc main_arg2) : S128x128.Idx → EReal) = w1 := (Stretch.keep0 (W0 m ρ c) main_arg2 (by decide)).trans hw1
  have a1_b1 : (W1 m ρ c (Proc.devRef .tc main_arg3) : S128.Idx → EReal) = b1 := (Stretch.keep0 (W0 m ρ c) main_arg3 (by decide)).trans hb1
  have a1_w2 : (W1 m ρ c (Proc.devRef .tc main_arg4) : S128x128.Idx → EReal) = w2 := (Stretch.keep0 (W0 m ρ c) main_arg4 (by decide)).trans hw2
  -- boundary 2: after the first dense transform
  have a2_lin : (W2 m ρ c (Proc.devRef .tc main_v27) : S100000x128.Idx → EReal) = Cert.Gcn.dense (F := Ideal) x w1 :=
    (W2_arr m ρ c 2).trans ((Region0.value (V1 m ρ) c).trans (congrArg₂ (Cert.Gcn.dense (F := Ideal)) a1_x a1_w1))
  have a2_src : (W2 m ρ c (Proc.devRef .tc main_v3) : S1700000.Idx → BitVec 32) = Cert.Gcn.srcIdx ei := (W2_of_ne m ρ c main_v3 (by decide)).trans a1_src
  have a2_dst : (W2 m ρ c (Proc.devRef .tc main_v6) : S1700000.Idx → BitVec 32) = Cert.Gcn.dstIdx ei := (W2_of_ne m ρ c main_v6 (by decide)).trans a1_dst
  have a2_nrm : (W2 m ρ c (Proc.devRef .tc main_v26) : S1700000.Idx → EReal) = Cert.Gcn.edgeNorm (F := Ideal) ei := (W2_of_ne m ρ c main_v26 (by decide)).trans a1_nrm
  have a2_b1 : (W2 m ρ c (Proc.devRef .tc main_arg3) : S128.Idx → EReal) = b1 := (W2_of_ne m ρ c main_arg3 (by decide)).trans a1_b1
  have a2_w2 : (W2 m ρ c (Proc.devRef .tc main_arg4) : S128x128.Idx → EReal) = w2 := (W2_of_ne m ρ c main_arg4 (by decide)).trans a1_w2
  -- boundary 3: after the take
  have a3_g : (W3 m ρ c (Proc.devRef .tc main_v28) : S1700000x128.Idx → EReal) = Cert.Gcn.gatherSrc (F := Ideal) ei (Cert.Gcn.dense (F := Ideal) x w1) :=
    (Stretch.take1 (W2 m ρ c)).trans ((congrArg₂ (Take.takeFill (F := Ideal)) a2_lin a2_src).trans (Take.takeFill_eq_gather _ ei hei))
  have a3_src : (W3 m ρ c (Proc.devRef .tc main_v3) : S1700000.Idx → BitVec 32) = Cert.Gcn.srcIdx ei := (Stretch.keep1 (W2 m ρ c) main_v3 (by decide)).trans a2_src
  have a3_dst : (W3 m ρ c (Proc.devRef .tc main_v6) : S1700000.Idx → BitVec 32) = Cert.Gcn.dstIdx ei := (Stretch.keep1 (W2 m ρ c) main_v6 (by decide)).trans a2_dst
  have a3_nrm : (W3 m ρ c (Proc.devRef .tc main_v26) : S1700000.Idx → EReal) = Cert.Gcn.edgeNorm (F := Ideal) ei := (Stretch.keep1 (W2 m ρ c) main_v26 (by decide)).trans a2_nrm
  have a3_b1 : (W3 m ρ c (Proc.devRef .tc main_arg3) : S128.Idx → EReal) = b1 := (Stretch.keep1 (W2 m ρ c) main_arg3 (by decide)).trans a2_b1
  have a3_w2 : (W3 m ρ c (Proc.devRef .tc main_arg4) : S128x128.Idx → EReal) = w2 := (Stretch.keep1 (W2 m ρ c) main_arg4 (by decide)).trans a2_w2
  -- boundary 4: the weights as a column
  have a4_col : (W4 m ρ c (Proc.devRef .tc main_v29) : S1700000x1.Idx → EReal) = shapeCast S1700000x1 (Cert.Gcn.edgeNorm (F := Ideal) ei) Facts₀.shapeCasts_S1700000_S1700000x1 :=
    (Stretch.col1_1 (W3 m ρ c)).trans (congrArg (fun v : S1700000.Idx → EReal => shapeCast S1700000x1 v Facts₀.shapeCasts_S1700000_S1700000x1) a3_nrm)
  have a4_g : (W4 m ρ c (Proc.devRef .tc main_v28) : S1700000x128.Idx → EReal) = Cert.Gcn.gatherSrc (F := Ideal) ei (Cert.Gcn.dense (F := Ideal) x w1) := (Stretch.keep1_1 (W3 m ρ c) main_v28 (by decide)).trans a3_g
  have a4_src : (W4 m ρ c (Proc.devRef .tc main_v3) : S1700000.Idx → BitVec 32) = Cert.Gcn.srcIdx ei := (Stretch.keep1_1 (W3 m ρ c) main_v3 (by decide)).trans a3_src
  have a4_dst : (W4 m ρ c (Proc.devRef .tc main_v6) : S1700000.Idx → BitVec 32) = Cert.Gcn.dstIdx ei := (Stretch.keep1_1 (W3 m ρ c) main_v6 (by decide)).trans a3_dst
  have a4_nrm : (W4 m ρ c (Proc.devRef .tc main_v26) : S1700000.Idx → EReal) = Cert.Gcn.edgeNorm (F := Ideal) ei := (Stretch.keep1_1 (W3 m ρ c) main_v26 (by decide)).trans a3_nrm
  have a4_b1 : (W4 m ρ c (Proc.devRef .tc main_arg3) : S128.Idx → EReal) = b1 := (Stretch.keep1_1 (W3 m ρ c) main_arg3 (by decide)).trans a3_b1
  have a4_w2 : (W4 m ρ c (Proc.devRef .tc main_arg4) : S128x128.Idx → EReal) = w2 := (Stretch.keep1_1 (W3 m ρ c) main_arg4 (by decide)).trans a3_w2
  -- boundary 5: after the first rescale
  have a5_msg : (W5 m ρ c (Proc.devRef .tc main_v30) : S1700000x128.Idx → EReal)
      = mulf (F := Ideal) (Cert.Gcn.gatherSrc (F := Ideal) ei (Cert.Gcn.dense (F := Ideal) x w1)) (Cert.Gcn.normRows (F := Ideal) (Cert.Gcn.edgeNorm (F := Ideal) ei)) :=
    (W5_arr m ρ c 2).trans ((Region1.value (V4 m ρ) c (Cert.Gcn.edgeNorm (F := Ideal) ei) a4_col).trans
      (congrArg (fun g : S1700000x128.Idx → EReal => mulf (F := Ideal) g (Cert.Gcn.normRows (F := Ideal) (Cert.Gcn.edgeNorm (F := Ideal) ei))) a4_g))
  have a5_src : (W5 m ρ c (Proc.devRef .tc main_v3) : S1700000.Idx → BitVec 32) = Cert.Gcn.srcIdx ei := (W5_of_ne m ρ c main_v3 (by decide)).trans a4_src
  have a5_dst : (W5 m ρ c (Proc.devRef .tc main_v6) : S1700000.Idx → BitVec 32) = Cert.Gcn.dstIdx ei := (W5_of_ne m ρ c main_v6 (by decide)).trans a4_dst
  have a5_nrm : (W5 m ρ c (Proc.devRef .tc main_v26) : S1700000.Idx → EReal) = Cert.Gcn.edgeNorm (F := Ideal) ei := (W5_of_ne m ρ c main_v26 (by decide)).trans a4_nrm
  have a5_b1 : (W5 m ρ c (Proc.devRef .tc main_arg3) : S128.Idx → EReal) = b1 := (W5_of_ne m ρ c main_arg3 (by decide)).trans a4_b1
  have a5_w2 : (W5 m ρ c (Proc.devRef .tc main_arg4) : S128x128.Idx → EReal) = w2 := (W5_of_ne m ρ c main_arg4 (by decide)).trans a4_w2
  -- boundaries 6 and 7: scatter-add, bias, clamp: the first layer's output
  have a6_b : (W6 m ρ c (Proc.devRef .tc main_v36) : S100000x128.Idx → EReal)
      = Cert.Gcn.scatterBias (F := Ideal) ei (mulf (F := Ideal) (Cert.Gcn.gatherSrc (F := Ideal) ei (Cert.Gcn.dense (F := Ideal) x w1)) (Cert.Gcn.normRows (F := Ideal) (Cert.Gcn.edgeNorm (F := Ideal) ei))) b1 :=
    (Stretch.bias2 (W5 m ρ c) ei a5_dst).trans (congrArg₂ (Cert.Gcn.scatterBias (F := Ideal) ei) a5_msg a5_b1)
  have a6_src : (W6 m ρ c (Proc.devRef .tc main_v3) : S1700000.Idx → BitVec 32) = Cert.Gcn.srcIdx ei := (Stretch.keep2 (W5 m ρ c) main_v3 (by decide)).trans a5_src
  have a6_dst : (W6 m ρ c (Proc.devRef .tc main_v6) : S1700000.Idx → BitVec 32) = Cert.Gcn.dstIdx ei := (Stretch.keep2 (W5 m ρ c) main_v6 (by decide)).trans a5_dst
  have a6_nrm : (W6 m ρ c (Proc.devRef .tc main_v26) : S1700000.Idx → EReal) = Cert.Gcn.edgeNorm (F := Ideal) ei := (Stretch.keep2 (W5 m ρ c) main_v26 (by decide)).trans a5_nrm
  have a6_w2 : (W6 m ρ c (Proc.devRef .tc main_arg4) : S128x128.Idx → EReal) = w2 := (Stretch.keep2 (W5 m ρ c) main_arg4 (by decide)).trans a5_w2
  have a7_h : (W7 m ρ c (Proc.devRef .tc main_v37) : S100000x128.Idx → EReal) = Cert.Gcn.aggregate (F := Ideal) ei (Cert.Gcn.dense (F := Ideal) x w1) b1 :=
    (Stretch.relu2_1 (W6 m ρ c)).trans (congrArg (Cert.Gcn.relu (F := Ideal)) a6_b)
  have a7_src : (W7 m ρ c (Proc.devRef .tc main_v3) : S1700000.Idx → BitVec 32) = Cert.Gcn.srcIdx ei := (Stretch.keep2_1 (W6 m ρ c) main_v3 (by decide)).trans a6_src
  have a7_dst : (W7 m ρ c (Proc.devRef .tc main_v6) : S1700000.Idx → BitVec 32) = Cert.Gcn.dstIdx ei := (Stretch.keep2_1 (W6 m ρ c) main_v6 (by decide)).trans a6_dst
  have a7_nrm : (W7 m ρ c (Proc.devRef .tc main_v26) : S1700000.Idx → EReal) = Cert.Gcn.edgeNorm (F := Ideal) ei := (Stretch.keep2_1 (W6 m ρ c) main_v26 (by decide)).trans a6_nrm
  have a7_w2 : (W7 m ρ c (Proc.devRef .tc main_arg4) : S128x128.Idx → EReal) = w2 := (Stretch.keep2_1 (W6 m ρ c) main_arg4 (by decide)).trans a6_w2
  generalize Cert.Gcn.aggregate (F := Ideal) ei (Cert.Gcn.dense (F := Ideal) x w1) b1 = h1 at a7_h ⊢
  -- boundary 8: after the second dense transform
  have a8_lin : (W8 m ρ c (Proc.devRef .tc main_v38) : S100000x128.Idx → EReal) = Cert.Gcn.dense (F := Ideal) h1 w2 :=
    (W8_arr m ρ c 2).trans ((Region2.value (V7 m ρ) c).trans (congrArg₂ (Cert.Gcn.dense (F := Ideal)) a7_h a7_w2))
  have a8_src : (W8 m ρ c (Proc.devRef .tc main_v3) : S1700000.Idx → BitVec 32) = Cert.Gcn.srcIdx ei := (W8_of_ne m ρ c main_v3 (by decide)).trans a7_src
  have a8_dst : (W8 m ρ c (Proc.devRef .tc main_v6) : S1700000.Idx → BitVec 32) = Cert.Gcn.dstIdx ei := (W8_of_ne m ρ c main_v6 (by decide)).trans a7_dst
  have a8_nrm : (W8 m ρ c (Proc.devRef .tc main_v26) : S1700000.Idx → EReal) = Cert.Gcn.edgeNorm (F := Ideal) ei := (W8_of_ne m ρ c main_v26 (by decide)).trans a7_nrm
  -- boundaries 9 and 10: the take and the weights as a column
  have a9_g : (W9 m ρ c (Proc.devRef .tc main_v39) : S1700000x128.Idx → EReal) = Cert.Gcn.gatherSrc (F := Ideal) ei (Cert.Gcn.dense (F := Ideal) h1 w2) :=
    (Stretch.take3 (W8 m ρ c)).trans ((congrArg₂ (Take.takeFill (F := Ideal)) a8_lin a8_src).trans (Take.takeFill_eq_gather _ ei hei))
  have a9_dst : (W9 m ρ c (Proc.devRef .tc main_v6) : S1700000.Idx → BitVec 32) = Cert.Gcn.dstIdx ei := (Stretch.keep3 (W8 m ρ c) main_v6 (by decide)).trans a8_dst
  have a9_nrm : (W9 m ρ c (Proc.devRef .tc main_v26) : S1700000.Idx → EReal) = Cert.Gcn.edgeNorm (F := Ideal) ei := (Stretch.keep3 (W8 m ρ c) main_v26 (by decide)).trans a8_nrm
  have a10_col : (W10 m ρ c (Proc.devRef .tc main_v40) : S1700000x1.Idx → EReal) = shapeCast S1700000x1 (Cert.Gcn.edgeNorm (F := Ideal) ei) Facts₀.shapeCasts_S1700000_S1700000x1 :=
    (Stretch.col3_1 (W9 m ρ c)).trans (congrArg (fun v : S1700000.Idx → EReal => shapeCast S1700000x1 v Facts₀.shapeCasts_S1700000_S1700000x1) a9_nrm)
  have a10_g : (W10 m ρ c (Proc.devRef .tc main_v39) : S1700000x128.Idx → EReal) = Cert.Gcn.gatherSrc (F := Ideal) ei (Cert.Gcn.dense (F := Ideal) h1 w2) := (Stretch.keep3_1 (W9 m ρ c) main_v39 (by decide)).trans a9_g
  have a10_dst : (W10 m ρ c (Proc.devRef .tc main_v6) : S1700000.Idx → BitVec 32) = Cert.Gcn.dstIdx ei := (Stretch.keep3_1 (W9 m ρ c) main_v6 (by decide)).trans a9_dst
  -- boundary 11: after the second rescale
  have a11_msg : (W11 m ρ c (Proc.devRef .tc main_v41) : S1700000x128.Idx → EReal)
      = mulf (F := Ideal) (Cert.Gcn.gatherSrc (F := Ideal) ei (Cert.Gcn.dense (F := Ideal) h1 w2)) (Cert.Gcn.normRows (F := Ideal) (Cert.Gcn.edgeNorm (F := Ideal) ei)) :=
    (W11_arr m ρ c 2).trans ((Region3.value (V10 m ρ) c (Cert.Gcn.edgeNorm (F := Ideal) ei) a10_col).trans
      (congrArg (fun g : S1700000x128.Idx → EReal => mulf (F := Ideal) g (Cert.Gcn.normRows (F := Ideal) (Cert.Gcn.edgeNorm (F := Ideal) ei))) a10_g))
  have a11_dst : (W11 m ρ c (Proc.devRef .tc main_v6) : S1700000.Idx → BitVec 32) = Cert.Gcn.dstIdx ei := (W11_of_ne m ρ c main_v6 (by decide)).trans a10_dst
  -- the second bias, the head's weight and bias: read back from the last boundary, where the arguments are as launched
  have a14_bf : (W14 m ρ c (Proc.devRef .tc main_arg7) : S64.Idx → EReal) = bf :=
    ((Stretch.keep5 (W14 m ρ c) main_arg7 (by decide)).symm.trans (W15_main_arg7 m ρ c)).trans hbf
  have a14_wf : (W14 m ρ c (Proc.devRef .tc main_arg6) : S128x64.Idx → EReal) = wf :=
    ((Stretch.keep5 (W14 m ρ c) main_arg6 (by decide)).symm.trans (W15_main_arg6 m ρ c)).trans hwf
  have a13_wf : (W13 m ρ c (Proc.devRef .tc main_arg6) : S128x64.Idx → EReal) = wf :=
    (((W14_arr m ρ c 1).trans (((dat4 (V13 m ρ) c).arrAt_in 1 rfl _).trans (A_eq4 (V13 m ρ) c 1))).symm).trans a14_wf
  have a14_b2 : (W14 m ρ c (Proc.devRef .tc main_arg5) : S128.Idx → EReal) = b2 :=
    ((Stretch.keep5 (W14 m ρ c) main_arg5 (by decide)).symm.trans (W15_main_arg5 m ρ c)).trans hb2
  have a13_b2 : (W13 m ρ c (Proc.devRef .tc main_arg5) : S128.Idx → EReal) = b2 := (W14_of_ne m ρ c main_arg5 (by decide)).symm.trans a14_b2
  have a12_b2 : (W12 m ρ c (Proc.devRef .tc main_arg5) : S128.Idx → EReal) = b2 := (Stretch.keep4_1 (W12 m ρ c) main_arg5 (by decide)).symm.trans a13_b2
  have a11_b2 : (W11 m ρ c (Proc.devRef .tc main_arg5) : S128.Idx → EReal) = b2 := (Stretch.keep4 (W11 m ρ c) main_arg5 (by decide)).symm.trans a12_b2
  -- boundaries 12 and 13: the second layer's output
  have a12_b : (W12 m ρ c (Proc.devRef .tc main_v47) : S100000x128.Idx → EReal)
      = Cert.Gcn.scatterBias (F := Ideal) ei (mulf (F := Ideal) (Cert.Gcn.gatherSrc (F := Ideal) ei (Cert.Gcn.dense (F := Ideal) h1 w2)) (Cert.Gcn.normRows (F := Ideal) (Cert.Gcn.edgeNorm (F := Ideal) ei))) b2 :=
    (Stretch.bias4 (W11 m ρ c) ei a11_dst).trans (congrArg₂ (Cert.Gcn.scatterBias (F := Ideal) ei) a11_msg a11_b2)
  have a13_h : (W13 m ρ c (Proc.devRef .tc main_v48) : S100000x128.Idx → EReal) = Cert.Gcn.aggregate (F := Ideal) ei (Cert.Gcn.dense (F := Ideal) h1 w2) b2 :=
    (Stretch.relu4_1 (W12 m ρ c)).trans (congrArg (Cert.Gcn.relu (F := Ideal)) a12_b)
  generalize Cert.Gcn.aggregate (F := Ideal) ei (Cert.Gcn.dense (F := Ideal) h1 w2) b2 = h2 at a13_h ⊢
  -- boundaries 14 and 15: the head
  have a14_o : (W14 m ρ c (Proc.devRef .tc main_v49) : S100000x64.Idx → EReal) = Cert.Gcn.headDense (F := Ideal) h2 wf :=
    (W14_arr m ρ c 2).trans ((Region4.value (V13 m ρ) c).trans (congrArg₂ (Cert.Gcn.headDense (F := Ideal)) a13_h a13_wf))
  exact (Stretch.head5 (W14 m ρ c) h2 wf a14_o).trans (congrArg (Cert.Gcn.head (F := Ideal) h2 wf) a14_bf)

end Cert.KernelIdeal.Walk

end
-- ==== Proof.lean ====
/-
  A two-layer graph convolution with a linear head: the tiled kernels' program against the plain one.

  Both programs compute, from the node features x, the edge list and the weights,
      h₁ = relu (A (x · W1) + b1),   h₂ = relu (A (h₁ · W2) + b2),   out = h₂ · Wf + bf,
  where A gathers a row per edge at the edge's source, scales it by the edge's weight rsqrt(deg src) · rsqrt(deg dst),
  and adds it into the edge's destination row (self-loops appended). The kernels' program does the three dense
  transforms and the two row scalings as tiled calls and the rest on the host; the reference does everything on the
  host. At the ideal values a tiled product is the whole product (the format change before it is the identity, the
  blocks tile the rows) and the tiled scaling is the whole entrywise product. The one difference left is the gather:
  the kernels' program gathers in jnp.take's default mode, which replaces a row whose index is out of range by a fill
  word, where the reference's indexing reads a clamped row. With every node number of the edge list in range — the
  added conjunct of the precondition — no row is replaced, and the two results are one function of the arguments.

  The frames of the two kernel programs are the generated ones; the reference's is its generated run. The kernel
  program's run is the generated frame's launch once more, also reading the result buffer (Proof/RunValue.lean); what
  that buffer holds is read boundary by boundary in Proof/Walk.lean, over the calls' values (Proof/Region0 … Region4),
  the host stretches (Proof/Stretches.lean) and the gather (Proof/TakeFill.lean); the reference's result term is the
  same function by unfolding (Proof/RefValue.lean).
-/
import proofs.«425278_j61151744361123_1_alg».proof.Defs
import proofs.«425278_j61151744361123_1_alg».proof.Proof.Gen.Kernel
import proofs.«425278_j61151744361123_1_alg».proof.Proof.Gen.Kernel.Skeleton
import proofs.«425278_j61151744361123_1_alg».proof.Proof.Gen.Kernel.Launch
import proofs.«425278_j61151744361123_1_alg».proof.Proof.Gen.Kernel.Points
import proofs.«425278_j61151744361123_1_alg».proof.Proof.Gen.Kernel.Frame
import proofs.«425278_j61151744361123_1_alg».proof.Proof.Gen.KernelIdeal
import proofs.«425278_j61151744361123_1_alg».proof.Proof.Gen.KernelIdeal.Skeleton
import proofs.«425278_j61151744361123_1_alg».proof.Proof.Gen.KernelIdeal.Launch
import proofs.«425278_j61151744361123_1_alg».proof.Proof.Gen.KernelIdeal.Points
import proofs.«425278_j61151744361123_1_alg».proof.Proof.Gen.KernelIdeal.Frame
import proofs.«425278_j61151744361123_1_alg».proof.Proof.Gen.ReferenceIdeal
import proofs.«425278_j61151744361123_1_alg».proof.Proof.Gen.Pre_finite_inputs
import proofs.«425278_j61151744361123_1_alg».proof.Proof.Gen.ReferenceIdeal.Run
import proofs.«425278_j61151744361123_1_alg».proof.Proof.RunValue
import proofs.«425278_j61151744361123_1_alg».proof.Proof.RefValue
import proofs.«425278_j61151744361123_1_alg».proof.Proof.TakeFill
import proofs.«425278_j61151744361123_1_alg».proof.Proof.Walk
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with the floats finite and the edge list's entries node numbers, both
    programs end with the network `gcn` of the arguments in their result buffers. -/
theorem algebraic : Cert.algebraic_KernelIdeal_ReferenceIdeal := by
  intro m ρ m' ρ' hpre hagree
  have hei := fun c : Dev Cert.KernelIdeal.nD => Cert.KernelIdeal.Take.range_of_pre (F := Ideal) _ _ _ _ _ _ _ _ (hpre c)
  refine ⟨fun c => Cert.Gcn.gcn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Walk.result_eq m ρ c (hei c)), (h c).2⟩)
      (Cert.KernelIdeal.RunValue.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_gcn, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
